-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x256 : Shape := ⟨2, ![4096, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S32768x4096 .f32) (main_arg1 : FVec F S4096x256 .f32) (main_arg2 : FVec F S256 .f32) (main_arg3 : FVec F S256x1 .f32) (main_arg4 : FVec F S1 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S32768x4096 : Shape := ⟨2, ![32768, 4096]⟩
abbrev S4096x256 : Shape := ⟨2, ![4096, 256]⟩
abbrev S256 : Shape := ⟨1, ![256]⟩
abbrev S256x1 : Shape := ⟨2, ![256, 1]⟩
abbrev S1 : Shape := ⟨1, ![1]⟩
abbrev S2048x256 : Shape := ⟨2, ![2048, 256]⟩
abbrev S1x256 : Shape := ⟨2, ![1, 256]⟩
abbrev S1x1 : Shape := ⟨2, ![1, 1]⟩
abbrev S32768x1 : Shape := ⟨2, ![32768, 1]⟩
abbrev S1024x2048 : Shape := ⟨2, ![1024, 2048]⟩
abbrev S1024x1 : Shape := ⟨2, ![1024, 1]⟩
abbrev S1024x256 : Shape := ⟨2, ![1024, 256]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S32768x4096, .f32⟩
  | .hbm, ⟨1, _⟩ => ⟨S4096x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S4096x256, .bf16⟩
  | .hbm, ⟨6, _⟩ => ⟨S2048x256, .bf16⟩
  | .hbm, ⟨7, _⟩ => ⟨S2048x256, .bf16⟩
  | .hbm, ⟨8, _⟩ => ⟨S1x256, .f32⟩
  | .hbm, ⟨9, _⟩ => ⟨S1x256, .f32⟩
  | .hbm, ⟨10, _⟩ => ⟨S1x1, .f32⟩
  | .hbm, ⟨11, _⟩ => ⟨S32768x1, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S1024x1, .f32⟩
  | .local _ .vmem, ⟨10, _⟩ => ⟨S1024x1, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S4096x256_S2048x256_0_0 : S4096x256.Slices ![0, 0] S2048x256
  slices_S4096x256_S2048x256_2048_0 : S4096x256.Slices ![2048, 0] S2048x256
  shapeCasts_S256_S1x256 : S256.ShapeCasts S1x256
  shapeCasts_S256x1_S1x256 : S256x1.ShapeCasts S1x256
  shapeCasts_S1_S1x1 : S1.ShapeCasts S1x1
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x4096.size a
  hwx0_0 : ∀ i : grid0.Coords, EltTy.bits .f32 = 32 ∨ (Rect.block (s := S32768x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x4096.size a
  hwx0_1 : ∀ i : grid0.Coords, EltTy.bits .f32 = 32 ∨ (Rect.block (s := S32768x4096) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S32768x1.size a
  hwx0_7 : ∀ i : grid0.Coords, EltTy.bits .f32 = 32 ∨ (Rect.block (s := S32768x1) S1024x1.size (cc0_transform_7 i) (hinb0_7 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096x256 : Shape := ⟨2, ![4096, 256]⟩
abbrev S256 : Shape := ⟨1, ![256]⟩
abbrev S256x1 : Shape := ⟨2, ![256, 1]⟩
abbrev S1 : Shape := ⟨1, ![1]⟩
abbrev S32768x256 : Shape := ⟨2, ![32768, 256]⟩
abbrev S1x256 : Shape := ⟨2, ![1, 256]⟩
abbrev S_ : Shape := ⟨0, ![]⟩
abbrev S32768x1 : Shape := ⟨2, ![32768, 1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S32768x256, .f32⟩
  | .hbm, ⟨6, _⟩ => ⟨S1x256, .f32⟩
  | .hbm, ⟨7, _⟩ => ⟨S32768x256, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S32768x1, .f32⟩
  | .hbm, ⟨13, _⟩ => ⟨S1x1, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S32768x4096_S4096x256_S32768x256_1_0_0_1_n_n_wf : DotDims.WF S32768x4096 S4096x256 S32768x256 [1] [0] [0] [1] [] []
  dot_S32768x256_S256x1_S32768x1_1_0_0_1_n_n_wf : DotDims.WF S32768x256 S256x1 S32768x1 [1] [0] [0] [1] [] []

variable [Facts₀]

def dot_S32768x4096_S4096x256_S32768x256_1_0_0_1_n_n : DotDims S32768x4096 S4096x256 S32768x256 where
  lhsContracting := [1]
  rhsContracting := [0]
  lhsNonContracting := [0]
  rhsNonContracting := [1]
  lhsBatch := []
  rhsBatch := []
  wf := dot_S32768x4096_S4096x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf

class Facts : Prop extends Facts₀ where

variable [Facts]
-- ==== Proof.LibFrameShared.lean ====
/-
  The frame run of a one-region TensorCore program whose INPUT windows may share an array.

  When one array in HBM is handed to a kernel through several input windows (a token matrix read by two windows, each
  at its own column half), the arrays behind the windows are no longer pairwise distinct, and the array's full share
  has to be dealt among the windows that read it. The launch then takes, in place of "every window holds its array
  outright", an entailment `hsplit`: the DISTINCT buffers behind the windows' arrays, each whole at the full share at
  its region-entry contents, yield the pipeline's per-window holdings at the shares the proof data names. Everything
  else is as for distinct arrays: a kernel with no semaphore of its own and nothing carried between grid points but
  its scoped buffers; every unscoped buffer that is no window's array bypasses the region and is read back unchanged.

  The conclusion is the library's frame post: every window's array ends at what the proof data computes for it
  (an input: its entry contents; an output: those overwritten by each write-back), every other unscoped buffer at its
  region-entry contents.
-/
import Idealize.ShloMosaic.Lib.Pipeline.Frame

noncomputable section

namespace Cert.Lib.FrameShared

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE FRAME RUN, the windows' arrays not assumed distinct. The region invariant is the core's scoped buffers that are
    no staging buffer, at some contents each (`hin`, `hout`); `hsplit` deals the arrays' buffers among the windows. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => by
      iintro ⟨-, HR⟩
      iapply (hin c)
      iexact HR)
    (hout := fun c => by
      iintro HΦ
      isplitr
      · iempintro
      · iapply (hout c)
        iexact HΦ)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.FrameShared

end
-- ==== Proof.FrameBits.lean ====
/-
  The frame of the router kernel: its one pipelined region runs to the end, faults nowhere, and leaves the five
  argument arrays as they were.

  The program is six host operations (the first weight matrix rounded to bf16 and cut into its two row halves, the two
  biases and the output column reshaped to rows) and then one region on a grid of 32 points. At point `t` the region's
  eight windows are: the token matrix TWICE (windows 0 and 1: rows 1024 t … 1024 t + 1023, columns 0 … 2047 and
  2048 … 4095), the five small operands whole (windows 2 … 6, fetched once), and the result's rows 1024 t … 1024 t + 1023
  (window 7, written back at every point). The body loads its seven input blocks, computes, and stores one value that
  covers the whole output block; it keeps nothing between points.

  Windows 0 and 1 read ONE array, so its full share is dealt between them, a half each (`dealt`); the run is the
  frame run for windows that share an array. The body's triple is found by symbolic execution of the body's memory
  operations over its one named payload.
-/
import proofs.«149555_g3504693313599_cont_8to1_b_191_5_alg».proof.Proof.Gen.Kernel.Launch
import proofs.«149555_g3504693313599_cont_8to1_b_191_5_alg».proof.Proof.Gen.Kernel.Skeleton
import proofs.«149555_g3504693313599_cont_8to1_b_191_5_alg».proof.Proof.Gen.Kernel.Points
import proofs.«149555_g3504693313599_cont_8to1_b_191_5_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the six host operations. -/
abbrev atEntry (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The host operations run within the unscoped buffers and leave them at `atEntry`; then comes the region. -/
theorem upToRegion (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host operation writes an argument array: each of the six writes a fresh intermediate. -/
theorem arg_kept (c : Dev nD) (b : Ref sig .tc)
    (hb : ∀ op ∈ (hostOps0 : List (HloOp τ sig (Elt F))), (Proc.devRef .tc b) ∉ op.writes) :
    atEntry m c b = m ((c : Thread nD τ).loc b) :=
  StableHlo.after_of_forall_not_mem (b := Proc.devRef .tc b) _ _ hb

theorem atEntry_arg0 (c : Dev nD) : atEntry m c main_arg0 = m ((c : Thread nD τ).loc main_arg0) :=
  arg_kept m c main_arg0 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg1 (c : Dev nD) : atEntry m c main_arg1 = m ((c : Thread nD τ).loc main_arg1) :=
  arg_kept m c main_arg1 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg2 (c : Dev nD) : atEntry m c main_arg2 = m ((c : Thread nD τ).loc main_arg2) :=
  arg_kept m c main_arg2 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg3 (c : Dev nD) : atEntry m c main_arg3 = m ((c : Thread nD τ).loc main_arg3) :=
  arg_kept m c main_arg3 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg4 (c : Dev nD) : atEntry m c main_arg4 = m ((c : Thread nD τ).loc main_arg4) :=
  arg_kept m c main_arg4 (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not: where it is not
    fetched its index has not moved, and the body left the block in place. One statement per input window. -/
theorem holds_in0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem holds_in1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem holds_in2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem holds_in3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem holds_in4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem holds_in5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem holds_in6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- Each of the body's accesses is of a whole block, as a rectangle from the origin: the two token halves, the two
    weight halves, the two rows, the one-entry bias, and the output block `[1024, 1]` its one store writes. -/
abbrev wholeX : Rect S1024x2048 := Rect.unit (s := S1024x2048) ![0, 0] S1024x2048.size inb_S1024x2048_S1024x2048_0_0
abbrev wholeW : Rect S2048x256 := Rect.unit (s := S2048x256) ![0, 0] S2048x256.size inb_S2048x256_S2048x256_0_0
abbrev wholeRow : Rect S1x256 := Rect.unit (s := S1x256) ![0, 0] S1x256.size inb_S1x256_S1x256_0_0
abbrev wholeOne : Rect S1x1 := Rect.unit (s := S1x1) ![0, 0] S1x1.size inb_S1x1_S1x1_0_0
abbrev wholeOut : Rect S1024x1 := Rect.unit (s := S1024x1) ![0, 0] S1024x1.size inb_S1024x1_S1024x1_0_0

/-- The output window's staging buffer after the body, from the seven input blocks: its one store, over the payload. -/
def stored (xa : Vec F S1024x2048 .f32) (xb : Vec F S1024x2048 .f32) (wa : Vec F S2048x256 .bf16) (wb : Vec F S2048x256 .bf16)
    (b1r : Vec F S1x256 .f32) (w2r : Vec F S1x256 .f32) (b2r : Vec F S1x1 .f32) : Vec F S1024x1 .f32 :=
  View.canon [⟨wholeOut, k0_pay1 (View.ld xa wholeX) (View.ld wa wholeW) (View.ld xb wholeX) (View.ld wb wholeW)
    (View.ld b1r wholeRow) (View.ld w2r wholeRow) (View.ld b2r wholeOne)⟩]

/-- The one store covers the block. -/
theorem stored_covers (p0 : Vec F S1024x1 .f32) (y : S1024x1.Idx) :
    ∃ pc ∈ ([⟨wholeOut, p0⟩] : List (View.Piece (Elt F) S1024x1 .f32)), y ∈ pc.1.set :=
  View.cover_of_tiled [⟨wholeOut, p0⟩] S1024x1.size (by rfl) y

/-! ## The body's triple -/

set_option maxHeartbeats 1000000 in
/-- The body on whole staging memrefs — the seven inputs' at contents read as `xa … b2r`, the output's at anything — runs
    to the continuation holding the inputs' as they were and the output's at `stored` of them. -/
theorem body_triple (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x256 .bf16) (harg3 : arg3.IsWhole) (arg4 : Memref sig .tc .vmem S2048x256 .bf16) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x1 .f32) (harg7 : arg7.IsWhole) (arg8 : Memref sig .tc .vmem S1024x1 .f32) (harg8 : arg8.IsWhole)
    (xa : Vec F S1024x2048 .f32) (xb : Vec F S1024x2048 .f32) (wa : Vec F S2048x256 .bf16) (wb : Vec F S2048x256 .bf16)
    (b1r : Vec F S1x256 .f32) (w2r : Vec F S1x256 .f32) (b2r : Vec F S1x1 .f32) (K : PUnit → sProp 𝕄) :
    iprop(owns (c : Thread nD τ) arg1 fullShare xa ∗ owns (c : Thread nD τ) arg2 fullShare xb ∗ owns (c : Thread nD τ) arg3 fullShare wa
        ∗ owns (c : Thread nD τ) arg4 fullShare wb ∗ owns (c : Thread nD τ) arg5 fullShare b1r ∗ owns (c : Thread nD τ) arg6 fullShare w2r
        ∗ owns (c : Thread nD τ) arg7 fullShare b2r ∗ (∃ d, owns (c : Thread nD τ) arg8 fullShare d)
        ∗ (iprop(owns (c : Thread nD τ) arg1 fullShare xa ∗ owns (c : Thread nD τ) arg2 fullShare xb ∗ owns (c : Thread nD τ) arg3 fullShare wa
            ∗ owns (c : Thread nD τ) arg4 fullShare wb ∗ owns (c : Thread nD τ) arg5 fullShare b1r ∗ owns (c : Thread nD τ) arg6 fullShare w2r
            ∗ owns (c : Thread nD τ) arg7 fullShare b2r ∗ owns (c : Thread nD τ) arg8 fullShare (stored xa xb wa wb b1r w2r b2r)) -∗ K ⟨⟩))
      ⊢ wp frame (wpE (defs₀ (F := F)) Variants.none c none) E (cc0__router_body i arg1 harg1 arg2 harg2 arg3 harg3 arg4 harg4 arg5 harg5 arg6 harg6 arg7 harg7 arg8 harg8) K := by
  simp only [cc0__router_body_eq_skeleton]; unfold cc0__router_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (stored_covers (F := F) _)

/-! ## The pipeline's proof data -/

/-- The proof data of the region on core `c`: the arrays as the region finds them; after the body at point `t` each
    input's buffer still at its block and the output's at `stored` of the seven input blocks; between points only the
    core's scoped buffers that are no staging buffer (there are none); nothing owed. The token matrix is read by
    windows 0 and 1, which hold it at the two halves of the full share; every other array is its window's outright. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => stored (blockAt m c 0 t) (blockAt m c 1 t) (blockAt m c 2 t) (blockAt m c 3 t) (blockAt m c 4 t) (blockAt m c 5 t) (blockAt m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (pdata m 0 c).A w = atEntry m c (Pipeline.arrRef spec0 w) := by
  dsimp only [pdata]

theorem left0 (c : Dev nD) (t : Fin cfg0.N) : (pdata m 0 c).after 0 t = blockAt m c 0 t := by dsimp only [pdata]
theorem left1 (c : Dev nD) (t : Fin cfg0.N) : (pdata m 0 c).after 1 t = blockAt m c 1 t := by dsimp only [pdata]
theorem left2 (c : Dev nD) (t : Fin cfg0.N) : (pdata m 0 c).after 2 t = blockAt m c 2 t := by dsimp only [pdata]
theorem left3 (c : Dev nD) (t : Fin cfg0.N) : (pdata m 0 c).after 3 t = blockAt m c 3 t := by dsimp only [pdata]
theorem left4 (c : Dev nD) (t : Fin cfg0.N) : (pdata m 0 c).after 4 t = blockAt m c 4 t := by dsimp only [pdata]
theorem left5 (c : Dev nD) (t : Fin cfg0.N) : (pdata m 0 c).after 5 t = blockAt m c 5 t := by dsimp only [pdata]
theorem left6 (c : Dev nD) (t : Fin cfg0.N) : (pdata m 0 c).after 6 t = blockAt m c 6 t := by dsimp only [pdata]
theorem left7 (c : Dev nD) (t : Fin cfg0.N) : (pdata m 0 c).after 7 t
    = stored (blockAt m c 0 t) (blockAt m c 1 t) (blockAt m c 2 t) (blockAt m c 3 t) (blockAt m c 4 t) (blockAt m c 5 t) (blockAt m c 6 t) := by
  dsimp only [pdata]

theorem found0 (c : Dev nD) (t : Fin cfg0.N) (d) : (pdata m 0 c).before 0 t d = blockAt m c 0 t := holds_in0 m (pdata m 0 c) (A_eq m c 0) (left0 m c) t d
theorem found1 (c : Dev nD) (t : Fin cfg0.N) (d) : (pdata m 0 c).before 1 t d = blockAt m c 1 t := holds_in1 m (pdata m 0 c) (A_eq m c 1) (left1 m c) t d
theorem found2 (c : Dev nD) (t : Fin cfg0.N) (d) : (pdata m 0 c).before 2 t d = blockAt m c 2 t := holds_in2 m (pdata m 0 c) (A_eq m c 2) (left2 m c) t d
theorem found3 (c : Dev nD) (t : Fin cfg0.N) (d) : (pdata m 0 c).before 3 t d = blockAt m c 3 t := holds_in3 m (pdata m 0 c) (A_eq m c 3) (left3 m c) t d
theorem found4 (c : Dev nD) (t : Fin cfg0.N) (d) : (pdata m 0 c).before 4 t d = blockAt m c 4 t := holds_in4 m (pdata m 0 c) (A_eq m c 4) (left4 m c) t d
theorem found5 (c : Dev nD) (t : Fin cfg0.N) (d) : (pdata m 0 c).before 5 t d = blockAt m c 5 t := holds_in5 m (pdata m 0 c) (A_eq m c 5) (left5 m c) t d
theorem found6 (c : Dev nD) (t : Fin cfg0.N) (d) : (pdata m 0 c).before 6 t d = blockAt m c 6 t := holds_in6 m (pdata m 0 c) (A_eq m c 6) (left6 m c) t d

/-! ## The body obligation, at a generic point -/

/-- What the body is called with at point `t`, the windows one by one, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it gives back. -/
def givenBack (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: each input's memref holds its block, so the triple applies; the invariant and what the core
    owes pass through unread. -/
theorem body_at (c : Dev nD) (t : Fin cfg0.N) :
    handed m c t ⊢ wp frame (wpE (defs₀ (F := F)) Variants.none c none) Set.univ (bodyAt0 t) (fun _ => givenBack m c t) := by
  unfold handed givenBack bodyAt0
  simp only [found0, found1, found2, found3, found4, found5, found6]
  rw [show (pdata m 0 c).Φ t.succ = (pdata m 0 c).Φ t.castSucc from rfl,
    show (pdata m 0 c).owesAt () t.succ = (pdata m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (pdata (F := F) m 0 c) (defs₀ (F := F)) Variants.none () Set.univ := fun t => by
  rw [bigSep_W0, bigSep_W0]
  exact body_at m c t

/-! ## The token matrix dealt between its two windows -/

/-- The buffers behind the eight windows' arrays are seven: the token matrix (twice a window's array), the two weight
    halves, the two rows, the one-entry bias and the result. -/
theorem arrBufs_listed (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v1) ↦{fullShare} V main_v1)
          ∗ (((c : Thread nD τ).loc main_v2) ↦{fullShare} V main_v2) ∗ (((c : Thread nD τ).loc main_v3) ↦{fullShare} V main_v3)
          ∗ (((c : Thread nD τ).loc main_v4) ↦{fullShare} V main_v4) ∗ (((c : Thread nD τ).loc main_v5) ↦{fullShare} V main_v5)
          ∗ (((c : Thread nD τ).loc main_v6) ↦{fullShare} V main_v6)) := by
  unfold Pipeline.arrBufs
  exact bigSep_eq_bigSepL_of_eq [main_arg0, main_v1, main_v2, main_v3, main_v4, main_v5, main_v6] (by decide) (by decide) _

/-- The seven distinct buffers behind the eight windows' arrays, each whole at the full share, make the pipeline's
    per-window holdings: the token matrix's full share splits into its two halves, one for each of windows 0 and 1. -/
theorem dealt (c : Dev nD) :
    (Pipeline.arrBufs (Ix := Unit) (Name := ℕ) (U := UR sig nD τ) (Lvl := ℕ) spec0 c (atEntry m c) : sProp 𝕄)
      ⊢ (pdata m 0 c).arrays ((pdata m 0 c).arrAt · 0) := by
  rw [arrBufs_listed]
  unfold Dat.arrays
  rw [bigSep_W0]
  simp only [View.set_whole]
  iintro ⟨Hx, H1, H2, H3, H4, H5, H6⟩
  ihave Hx' := (pointsTo_share (PosShare.mem_left_op_right fullShare)).1 $$ Hx
  icases Hx' with ⟨Hxl, Hxr⟩
  isplitl [Hxl]; · iexact Hxl
  isplitl [Hxr]; · iexact Hxr
  isplitl [H1]; · iexact H1
  isplitl [H2]; · iexact H2
  isplitl [H3]; · iexact H3
  isplitl [H4]; · iexact H4
  isplitl [H5]; · iexact H5
  iexact H6

/-! ## The run and the frame -/

set_option backward.isDefEq.respectTransparency.types false in
/-- From any memory with zero counters, every weakly fair execution of the program terminates without a fault; at the
    end every window's array holds what the proof data computes for it, every other unscoped buffer what the region found. -/
theorem run_main : θ_run defs (onTc (τ := τ) (main (F := F))) (s₀ m ρ) (Pipeline.FramePost cfgs (pdata m) 0 (atEntry m)) :=
  Cert.Lib.FrameShared.θ_run_frame_shared cfgs (pdata m) (0 : Fin 1) cellOf_inj winFacts₀0 block_pos0 arr_whole0 stage_whole0
    defs₀ Variants.none m ρ main
    (hbody := fun c => (obligation m c).loose) (howed := fun _ _ => rfl) (V := atEntry m) (hmain := upToRegion m Variants.none)
    (hsplit := dealt m) (hin := fun _ => .rfl) (hout := fun _ => .rfl)

/-- THE FRAME, at any float instance: the five argument arrays end as they were launched. Windows 0 and 1 read the token
    matrix and never write it; the other four arguments are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((pdata m 0 c).arrAt_in 0 rfl _).trans ((A_eq m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c)⟩) (run_main m ρ)

end Cert.Kernel.Frame

end
-- ==== Proof.FrameIdeal.lean ====
/-
  The frame of the router kernel: its one pipelined region runs to the end, faults nowhere, and leaves the five
  argument arrays as they were.

  The program is six host operations (the first weight matrix rounded to bf16 and cut into its two row halves, the two
  biases and the output column reshaped to rows) and then one region on a grid of 32 points. At point `t` the region's
  eight windows are: the token matrix TWICE (windows 0 and 1: rows 1024 t … 1024 t + 1023, columns 0 … 2047 and
  2048 … 4095), the five small operands whole (windows 2 … 6, fetched once), and the result's rows 1024 t … 1024 t + 1023
  (window 7, written back at every point). The body loads its seven input blocks, computes, and stores one value that
  covers the whole output block; it keeps nothing between points.

  Windows 0 and 1 read ONE array, so its full share is dealt between them, a half each (`dealt`); the run is the
  frame run for windows that share an array. The body's triple is found by symbolic execution of the body's memory
  operations over its one named payload.
-/
import proofs.«149555_g3504693313599_cont_8to1_b_191_5_alg».proof.Proof.Gen.KernelIdeal.Launch
import proofs.«149555_g3504693313599_cont_8to1_b_191_5_alg».proof.Proof.Gen.KernelIdeal.Skeleton
import proofs.«149555_g3504693313599_cont_8to1_b_191_5_alg».proof.Proof.Gen.KernelIdeal.Points
import proofs.«149555_g3504693313599_cont_8to1_b_191_5_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the six host operations. -/
abbrev atEntry (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The host operations run within the unscoped buffers and leave them at `atEntry`; then comes the region. -/
theorem upToRegion (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host operation writes an argument array: each of the six writes a fresh intermediate. -/
theorem arg_kept (c : Dev nD) (b : Ref sig .tc)
    (hb : ∀ op ∈ (hostOps0 : List (HloOp τ sig (Elt F))), (Proc.devRef .tc b) ∉ op.writes) :
    atEntry m c b = m ((c : Thread nD τ).loc b) :=
  StableHlo.after_of_forall_not_mem (b := Proc.devRef .tc b) _ _ hb

theorem atEntry_arg0 (c : Dev nD) : atEntry m c main_arg0 = m ((c : Thread nD τ).loc main_arg0) :=
  arg_kept m c main_arg0 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg1 (c : Dev nD) : atEntry m c main_arg1 = m ((c : Thread nD τ).loc main_arg1) :=
  arg_kept m c main_arg1 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg2 (c : Dev nD) : atEntry m c main_arg2 = m ((c : Thread nD τ).loc main_arg2) :=
  arg_kept m c main_arg2 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg3 (c : Dev nD) : atEntry m c main_arg3 = m ((c : Thread nD τ).loc main_arg3) :=
  arg_kept m c main_arg3 (List.forall_iff_forall_mem.mp (by
    simp only [hostOps0, List.Forall, StableHlo.unary_writes, StableHlo.reshape_writes, Finset.mem_singleton]
    repeat' apply And.intro
    all_goals exact StableHlo.devRef_ne_of_ne (by decide)))
theorem atEntry_arg4 (c : Dev nD) : atEntry m c main_arg4 = m ((c : Thread nD τ).loc main_arg4) :=
  arg_kept m c main_arg4 (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not: where it is not
    fetched its index has not moved, and the body left the block in place. One statement per input window. -/
theorem holds_in0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem holds_in1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem holds_in2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem holds_in3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem holds_in4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem holds_in5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem holds_in6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- Each of the body's accesses is of a whole block, as a rectangle from the origin: the two token halves, the two
    weight halves, the two rows, the one-entry bias, and the output block `[1024, 1]` its one store writes. -/
abbrev wholeX : Rect S1024x2048 := Rect.unit (s := S1024x2048) ![0, 0] S1024x2048.size inb_S1024x2048_S1024x2048_0_0
abbrev wholeW : Rect S2048x256 := Rect.unit (s := S2048x256) ![0, 0] S2048x256.size inb_S2048x256_S2048x256_0_0
abbrev wholeRow : Rect S1x256 := Rect.unit (s := S1x256) ![0, 0] S1x256.size inb_S1x256_S1x256_0_0
abbrev wholeOne : Rect S1x1 := Rect.unit (s := S1x1) ![0, 0] S1x1.size inb_S1x1_S1x1_0_0
abbrev wholeOut : Rect S1024x1 := Rect.unit (s := S1024x1) ![0, 0] S1024x1.size inb_S1024x1_S1024x1_0_0

/-- The output window's staging buffer after the body, from the seven input blocks: its one store, over the payload. -/
def stored (xa : Vec F S1024x2048 .f32) (xb : Vec F S1024x2048 .f32) (wa : Vec F S2048x256 .bf16) (wb : Vec F S2048x256 .bf16)
    (b1r : Vec F S1x256 .f32) (w2r : Vec F S1x256 .f32) (b2r : Vec F S1x1 .f32) : Vec F S1024x1 .f32 :=
  View.canon [⟨wholeOut, k0_pay1 (View.ld xa wholeX) (View.ld wa wholeW) (View.ld xb wholeX) (View.ld wb wholeW)
    (View.ld b1r wholeRow) (View.ld w2r wholeRow) (View.ld b2r wholeOne)⟩]

/-- The one store covers the block. -/
theorem stored_covers (p0 : Vec F S1024x1 .f32) (y : S1024x1.Idx) :
    ∃ pc ∈ ([⟨wholeOut, p0⟩] : List (View.Piece (Elt F) S1024x1 .f32)), y ∈ pc.1.set :=
  View.cover_of_tiled [⟨wholeOut, p0⟩] S1024x1.size (by rfl) y

/-! ## The body's triple -/

set_option maxHeartbeats 1000000 in
/-- The body on whole staging memrefs — the seven inputs' at contents read as `xa … b2r`, the output's at anything — runs
    to the continuation holding the inputs' as they were and the output's at `stored` of them. -/
theorem body_triple (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x256 .bf16) (harg3 : arg3.IsWhole) (arg4 : Memref sig .tc .vmem S2048x256 .bf16) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x1 .f32) (harg7 : arg7.IsWhole) (arg8 : Memref sig .tc .vmem S1024x1 .f32) (harg8 : arg8.IsWhole)
    (xa : Vec F S1024x2048 .f32) (xb : Vec F S1024x2048 .f32) (wa : Vec F S2048x256 .bf16) (wb : Vec F S2048x256 .bf16)
    (b1r : Vec F S1x256 .f32) (w2r : Vec F S1x256 .f32) (b2r : Vec F S1x1 .f32) (K : PUnit → sProp 𝕄) :
    iprop(owns (c : Thread nD τ) arg1 fullShare xa ∗ owns (c : Thread nD τ) arg2 fullShare xb ∗ owns (c : Thread nD τ) arg3 fullShare wa
        ∗ owns (c : Thread nD τ) arg4 fullShare wb ∗ owns (c : Thread nD τ) arg5 fullShare b1r ∗ owns (c : Thread nD τ) arg6 fullShare w2r
        ∗ owns (c : Thread nD τ) arg7 fullShare b2r ∗ (∃ d, owns (c : Thread nD τ) arg8 fullShare d)
        ∗ (iprop(owns (c : Thread nD τ) arg1 fullShare xa ∗ owns (c : Thread nD τ) arg2 fullShare xb ∗ owns (c : Thread nD τ) arg3 fullShare wa
            ∗ owns (c : Thread nD τ) arg4 fullShare wb ∗ owns (c : Thread nD τ) arg5 fullShare b1r ∗ owns (c : Thread nD τ) arg6 fullShare w2r
            ∗ owns (c : Thread nD τ) arg7 fullShare b2r ∗ owns (c : Thread nD τ) arg8 fullShare (stored xa xb wa wb b1r w2r b2r)) -∗ K ⟨⟩))
      ⊢ wp frame (wpE (defs₀ (F := F)) Variants.none c none) E (cc0__router_body i arg1 harg1 arg2 harg2 arg3 harg3 arg4 harg4 arg5 harg5 arg6 harg6 arg7 harg7 arg8 harg8) K := by
  simp only [cc0__router_body_eq_skeleton]; unfold cc0__router_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (stored_covers (F := F) _)

/-! ## The pipeline's proof data -/

/-- The proof data of the region on core `c`: the arrays as the region finds them; after the body at point `t` each
    input's buffer still at its block and the output's at `stored` of the seven input blocks; between points only the
    core's scoped buffers that are no staging buffer (there are none); nothing owed. The token matrix is read by
    windows 0 and 1, which hold it at the two halves of the full share; every other array is its window's outright. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => stored (blockAt m c 0 t) (blockAt m c 1 t) (blockAt m c 2 t) (blockAt m c 3 t) (blockAt m c 4 t) (blockAt m c 5 t) (blockAt m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (pdata m 0 c).A w = atEntry m c (Pipeline.arrRef spec0 w) := by
  dsimp only [pdata]

theorem left0 (c : Dev nD) (t : Fin cfg0.N) : (pdata m 0 c).after 0 t = blockAt m c 0 t := by dsimp only [pdata]
theorem left1 (c : Dev nD) (t : Fin cfg0.N) : (pdata m 0 c).after 1 t = blockAt m c 1 t := by dsimp only [pdata]
theorem left2 (c : Dev nD) (t : Fin cfg0.N) : (pdata m 0 c).after 2 t = blockAt m c 2 t := by dsimp only [pdata]
theorem left3 (c : Dev nD) (t : Fin cfg0.N) : (pdata m 0 c).after 3 t = blockAt m c 3 t := by dsimp only [pdata]
theorem left4 (c : Dev nD) (t : Fin cfg0.N) : (pdata m 0 c).after 4 t = blockAt m c 4 t := by dsimp only [pdata]
theorem left5 (c : Dev nD) (t : Fin cfg0.N) : (pdata m 0 c).after 5 t = blockAt m c 5 t := by dsimp only [pdata]
theorem left6 (c : Dev nD) (t : Fin cfg0.N) : (pdata m 0 c).after 6 t = blockAt m c 6 t := by dsimp only [pdata]
theorem left7 (c : Dev nD) (t : Fin cfg0.N) : (pdata m 0 c).after 7 t
    = stored (blockAt m c 0 t) (blockAt m c 1 t) (blockAt m c 2 t) (blockAt m c 3 t) (blockAt m c 4 t) (blockAt m c 5 t) (blockAt m c 6 t) := by
  dsimp only [pdata]

theorem found0 (c : Dev nD) (t : Fin cfg0.N) (d) : (pdata m 0 c).before 0 t d = blockAt m c 0 t := holds_in0 m (pdata m 0 c) (A_eq m c 0) (left0 m c) t d
theorem found1 (c : Dev nD) (t : Fin cfg0.N) (d) : (pdata m 0 c).before 1 t d = blockAt m c 1 t := holds_in1 m (pdata m 0 c) (A_eq m c 1) (left1 m c) t d
theorem found2 (c : Dev nD) (t : Fin cfg0.N) (d) : (pdata m 0 c).before 2 t d = blockAt m c 2 t := holds_in2 m (pdata m 0 c) (A_eq m c 2) (left2 m c) t d
theorem found3 (c : Dev nD) (t : Fin cfg0.N) (d) : (pdata m 0 c).before 3 t d = blockAt m c 3 t := holds_in3 m (pdata m 0 c) (A_eq m c 3) (left3 m c) t d
theorem found4 (c : Dev nD) (t : Fin cfg0.N) (d) : (pdata m 0 c).before 4 t d = blockAt m c 4 t := holds_in4 m (pdata m 0 c) (A_eq m c 4) (left4 m c) t d
theorem found5 (c : Dev nD) (t : Fin cfg0.N) (d) : (pdata m 0 c).before 5 t d = blockAt m c 5 t := holds_in5 m (pdata m 0 c) (A_eq m c 5) (left5 m c) t d
theorem found6 (c : Dev nD) (t : Fin cfg0.N) (d) : (pdata m 0 c).before 6 t d = blockAt m c 6 t := holds_in6 m (pdata m 0 c) (A_eq m c 6) (left6 m c) t d

/-! ## The body obligation, at a generic point -/

/-- What the body is called with at point `t`, the windows one by one, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it gives back. -/
def givenBack (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: each input's memref holds its block, so the triple applies; the invariant and what the core
    owes pass through unread. -/
theorem body_at (c : Dev nD) (t : Fin cfg0.N) :
    handed m c t ⊢ wp frame (wpE (defs₀ (F := F)) Variants.none c none) Set.univ (bodyAt0 t) (fun _ => givenBack m c t) := by
  unfold handed givenBack bodyAt0
  simp only [found0, found1, found2, found3, found4, found5, found6]
  rw [show (pdata m 0 c).Φ t.succ = (pdata m 0 c).Φ t.castSucc from rfl,
    show (pdata m 0 c).owesAt () t.succ = (pdata m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (pdata (F := F) m 0 c) (defs₀ (F := F)) Variants.none () Set.univ := fun t => by
  rw [bigSep_W0, bigSep_W0]
  exact body_at m c t

/-! ## The token matrix dealt between its two windows -/

/-- The buffers behind the eight windows' arrays are seven: the token matrix (twice a window's array), the two weight
    halves, the two rows, the one-entry bias and the result. -/
theorem arrBufs_listed (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v1) ↦{fullShare} V main_v1)
          ∗ (((c : Thread nD τ).loc main_v2) ↦{fullShare} V main_v2) ∗ (((c : Thread nD τ).loc main_v3) ↦{fullShare} V main_v3)
          ∗ (((c : Thread nD τ).loc main_v4) ↦{fullShare} V main_v4) ∗ (((c : Thread nD τ).loc main_v5) ↦{fullShare} V main_v5)
          ∗ (((c : Thread nD τ).loc main_v6) ↦{fullShare} V main_v6)) := by
  unfold Pipeline.arrBufs
  exact bigSep_eq_bigSepL_of_eq [main_arg0, main_v1, main_v2, main_v3, main_v4, main_v5, main_v6] (by decide) (by decide) _

/-- The seven distinct buffers behind the eight windows' arrays, each whole at the full share, make the pipeline's
    per-window holdings: the token matrix's full share splits into its two halves, one for each of windows 0 and 1. -/
theorem dealt (c : Dev nD) :
    (Pipeline.arrBufs (Ix := Unit) (Name := ℕ) (U := UR sig nD τ) (Lvl := ℕ) spec0 c (atEntry m c) : sProp 𝕄)
      ⊢ (pdata m 0 c).arrays ((pdata m 0 c).arrAt · 0) := by
  rw [arrBufs_listed]
  unfold Dat.arrays
  rw [bigSep_W0]
  simp only [View.set_whole]
  iintro ⟨Hx, H1, H2, H3, H4, H5, H6⟩
  ihave Hx' := (pointsTo_share (PosShare.mem_left_op_right fullShare)).1 $$ Hx
  icases Hx' with ⟨Hxl, Hxr⟩
  isplitl [Hxl]; · iexact Hxl
  isplitl [Hxr]; · iexact Hxr
  isplitl [H1]; · iexact H1
  isplitl [H2]; · iexact H2
  isplitl [H3]; · iexact H3
  isplitl [H4]; · iexact H4
  isplitl [H5]; · iexact H5
  iexact H6

/-! ## The run and the frame -/

set_option backward.isDefEq.respectTransparency.types false in
/-- From any memory with zero counters, every weakly fair execution of the program terminates without a fault; at the
    end every window's array holds what the proof data computes for it, every other unscoped buffer what the region found. -/
theorem run_main : θ_run defs (onTc (τ := τ) (main (F := F))) (s₀ m ρ) (Pipeline.FramePost cfgs (pdata m) 0 (atEntry m)) :=
  Cert.Lib.FrameShared.θ_run_frame_shared cfgs (pdata m) (0 : Fin 1) cellOf_inj winFacts₀0 block_pos0 arr_whole0 stage_whole0
    defs₀ Variants.none m ρ main
    (hbody := fun c => (obligation m c).loose) (howed := fun _ _ => rfl) (V := atEntry m) (hmain := upToRegion m Variants.none)
    (hsplit := dealt m) (hin := fun _ => .rfl) (hout := fun _ => .rfl)

/-- THE FRAME, at any float instance: the five argument arrays end as they were launched. Windows 0 and 1 read the token
    matrix and never write it; the other four arguments are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((pdata m 0 c).arrAt_in 0 rfl _).trans ((A_eq m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c)⟩) (run_main m ρ)

end Cert.KernelIdeal.Frame

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelPayload.lean ====
/-
  What the kernel's body stores, read at one row of its block, at the exact-real instance.

  The body's one store writes, for each of the block's 1024 rows `p`, the logistic function of
  `∑ⱼ max ((xa·wa)[p,j] + (xb·wb)[p,j] + b1[j]) 0 · w2[j] + b2`, where `xa`, `xb` are the two column halves of the
  token block and `wa`, `wb` the two row halves of the first weight matrix: each matrix product into a zero
  accumulator is a plain sum over its 2048 contracted coordinates, the lane reduction a plain sum over the 256 hidden units.
-/
import proofs.«149555_g3504693313599_cont_8to1_b_191_5_alg».proof.Proof.Gen.KernelIdeal.Skeleton
import proofs.«149555_g3504693313599_cont_8to1_b_191_5_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The matrix product's dimension numbers

The record contracts the left operand's axis 1 with the right operand's axis 0 and has no batch axis: at output index
`i` and contraction index `q` the left operand is read at `(i 0, q)` and the right at `(q, i 1)`. -/

/-- The left operand's row is the output's row. -/
theorem lhs_row (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
/-- The left operand's column is the contracted coordinate. -/
theorem lhs_col (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
/-- The right operand's row is the contracted coordinate. -/
theorem rhs_row (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
/-- The right operand's column is the output's column. -/
theorem rhs_col (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- A [1024, 2048] by [2048, 256] product into the zero accumulator, at `(p, j)`: the sum over the 2048 contracted
    coordinates of the row's entry times the column's entry. -/
theorem product_apply (l : FVec Ideal S1024x2048 .f32) (r : FVec Ideal S2048x256 .bf16) (p : Fin 1024) (j : Fin 256) :
    matmul dot_S1024x2048_S2048x256_S1024x256_1_0_0_1_n_n none l r (constant (F := Ideal) S1024x256 .f32 0x00000000#32) (ix2 p j)
      = ∑ a : Fin 2048, l (ix2 p a) * r (ix2 a j) :=
  Cert.Lib.Dot2.matmul_zero_ix2 dot_S1024x2048_S2048x256_S1024x256_1_0_0_1_n_n none rfl rfl lhs_row lhs_col rhs_row rhs_col l r p j

/-! ## The lane sum and the two column layouts -/

/-- The sum along axis 1 of a [1024, 256] block from the zero accumulator, at row `p`: the sum over the row's 256 entries. -/
theorem lane_sum_apply (src : FVec Ideal S1024x256 .f32) (hφ : FKind.Formats .f32)
    (hacc : (0x00000000#32 : BitVec 32) = 0x00000000#32) (p : Fin 1024) :
    multiReduction (F := Ideal) .add [1] S1024 src 0x00000000#32 reduces_S1024x256_S1024 hφ hacc (ix1 p)
      = ∑ j : Fin 256, src (ix2 p j) := by
  refine (Ideal.multiReduction_add_single src 0x00000000#32 reduces_S1024x256_S1024 hφ hacc (ix1 p)).trans ?_
  refine Finset.sum_congr rfl fun j _ => congrArg src (funext fun a => Fin.ext ?_)
  match a with
  | ⟨0, _⟩ => rfl
  | ⟨1, _⟩ => rfl

/-- A [1024] vector viewed as a [1024, 1] column reads, at `(p, z)`, the vector at `p`: both sit at row-major position `p`. -/
theorem column_apply {α : Type} (v : S1024.Idx → α) (h : S1024.ShapeCasts S1024x1) (p : Fin 1024) (z : Fin 1) :
    shapeCast S1024x1 v h (ix2 p z) = v (ix1 p) :=
  shapeCast_apply v h _ _ (by
    have hz : z.val = 0 := by omega
    rw [Shape.rowMajor_val_one, Shape.rowMajor_val_two]
    show p.val = p.val * 1 + z.val
    omega)

/-- A [1, 1] block broadcast down 1024 rows reads its one entry everywhere. -/
theorem one_entry_apply {α : Type} (v : S1x1.Idx → α) (h : S1x1.Broadcasts S1024x1) (p : Fin 1024) (z : Fin 1) :
    broadcastTo S1024x1 v h (ix2 p z) = v (ix2 (0 : Fin 1) (0 : Fin 1)) := by
  obtain rfl : z = 0 := Subsingleton.elim _ _
  exact broadcastTo_1b_ab_apply v h p 0

/-- The stored block at row `p` (its one column `z`), as a function of the body's seven loaded blocks. -/
theorem pay_apply (xa : FVec Ideal S1024x2048 .f32) (wa : FVec Ideal S2048x256 .bf16)
    (xb : FVec Ideal S1024x2048 .f32) (wb : FVec Ideal S2048x256 .bf16)
    (b1r w2r : FVec Ideal S1x256 .f32) (b2r : FVec Ideal S1x1 .f32) (p : Fin 1024) (z : Fin 1) :
    k0_pay1 (F := Ideal) xa wa xb wb b1r w2r b2r (ix2 p z)
      = Ideal.logistic ((∑ j : Fin 256,
            max (((∑ k : Fin 2048, xa (ix2 p k) * wa (ix2 k j)) + ∑ k : Fin 2048, xb (ix2 p k) * wb (ix2 k j))
                  + b1r (ix2 (0 : Fin 1) j)) 0 * w2r (ix2 (0 : Fin 1) j))
          + b2r (ix2 (0 : Fin 1) (0 : Fin 1))) := by
  unfold k0_pay1
  rw [shapeCast_self wa, shapeCast_self wb, shapeCast_self b1r, shapeCast_self w2r, shapeCast_self b2r]
  -- the logistic function and the last sum act entry by entry
  show Ideal.logistic (shapeCast S1024x1 _ shapeCasts_S1024_S1024x1 (ix2 p z)
      + broadcastTo S1024x1 b2r broadcasts_S1x1_S1024x1 (ix2 p z)) = _
  rw [column_apply, one_entry_apply]
  refine congrArg (fun s => Ideal.logistic (s + b2r (ix2 (0 : Fin 1) (0 : Fin 1))))
    ((lane_sum_apply _ _ _ p).trans (Finset.sum_congr rfl fun j _ => ?_))
  -- one hidden unit: the two products, the bias row, the maximum against zero, the second weight row
  show max ((matmul _ none xa wa _ (ix2 p j) + matmul _ none xb wb _ (ix2 p j))
      + broadcastTo S1024x256 b1r broadcasts_S1x256_S1024x256 (ix2 p j)) (Ideal.ofBits .f32 0x00000000#32)
      * broadcastTo S1024x256 w2r broadcasts_S1x256_S1024x256 (ix2 p j) = _
  rw [product_apply, product_apply, broadcastTo_1b_ab_apply, broadcastTo_1b_ab_apply, Ideal.ofBits_zero_f32]

end Cert.KernelIdeal.Payload

end
-- ==== Proof.Spec.lean ====
/-
  The router's gate as one function of its five arrays, on the extended reals.

  For a token (row) `r` of `x : [32768, 4096]`: the hidden unit `j` is `max (∑ₖ x[r,k] · W1[k,j] + b1[j]) 0`,
  the logit is `∑ⱼ hidden[r,j] · W2[j,0] + b2[0]`, and the result at `[r, 0]` is the logistic function of the
  logit, `1 / (1 + e^(-logit))`. Both programs compute exactly this; they differ only in how the sum over the
  4096 input features is cut (the kernel adds two sums over 2048 features each), which is the one law below.
-/
import Idealize.ShloMosaic.Lib.ValueIdx
import Idealize.ShloMosaic.PureOps.Ideal.Laws

noncomputable section

namespace Cert.Router

open Idealize.ShloMosaic Idealize.ShloMosaic.ValueIdx

/-- Hidden unit `j` of token `r`: the rectified affine form of the token's 4096 features. -/
def hidden (x : FVec Ideal ⟨2, ![32768, 4096]⟩ .f32) (W1 : FVec Ideal ⟨2, ![4096, 256]⟩ .f32)
    (b1 : FVec Ideal ⟨1, ![256]⟩ .f32) (r : Fin 32768) (j : Fin 256) : EReal :=
  max ((∑ k : Fin 4096, x (ix2 r k) * W1 (ix2 k j)) + b1 (ix1 j)) 0

/-- The logit of token `r`: the hidden layer against the one output column, plus the output bias. -/
def logit (x : FVec Ideal ⟨2, ![32768, 4096]⟩ .f32) (W1 : FVec Ideal ⟨2, ![4096, 256]⟩ .f32)
    (b1 : FVec Ideal ⟨1, ![256]⟩ .f32) (W2 : FVec Ideal ⟨2, ![256, 1]⟩ .f32) (b2 : FVec Ideal ⟨1, ![1]⟩ .f32)
    (r : Fin 32768) : EReal :=
  (∑ j : Fin 256, hidden x W1 b1 r j * W2 (ix2 j (0 : Fin 1))) + b2 (ix1 (0 : Fin 1))

/-- The gate, as the whole result array `[32768, 1]`: entry `[r, 0]` is the logistic function of token `r`'s logit. -/
def gate (x : FVec Ideal ⟨2, ![32768, 4096]⟩ .f32) (W1 : FVec Ideal ⟨2, ![4096, 256]⟩ .f32)
    (b1 : FVec Ideal ⟨1, ![256]⟩ .f32) (W2 : FVec Ideal ⟨2, ![256, 1]⟩ .f32) (b2 : FVec Ideal ⟨1, ![1]⟩ .f32) :
    FVec Ideal ⟨2, ![32768, 1]⟩ .f32 :=
  fun i => Ideal.logistic (logit x W1 b1 W2 b2 ⟨(i 0).val, (i 0).isLt⟩)

theorem gate_ix2 (x : FVec Ideal ⟨2, ![32768, 4096]⟩ .f32) (W1 : FVec Ideal ⟨2, ![4096, 256]⟩ .f32)
    (b1 : FVec Ideal ⟨1, ![256]⟩ .f32) (W2 : FVec Ideal ⟨2, ![256, 1]⟩ .f32) (b2 : FVec Ideal ⟨1, ![1]⟩ .f32)
    (r : Fin 32768) (z : Fin 1) :
    gate x W1 b1 W2 b2 (ix2 r z) = Ideal.logistic (logit x W1 b1 W2 b2 r) := rfl

/-- A sum over 4096 features is the sum over the first 2048 plus the sum over the last 2048: addition on the
    extended reals is commutative and associative, so no finiteness is needed. -/
theorem sum_halves (f : Fin 4096 → EReal) :
    ∑ k : Fin 4096, f k
      = (∑ k : Fin 2048, f ⟨k.val, by omega⟩) + ∑ k : Fin 2048, f ⟨2048 + k.val, by omega⟩ := by
  exact Fin.sum_univ_add (a := 2048) (b := 2048) (fun i : Fin (2048 + 2048) => f ⟨i.val, i.isLt⟩)

end Cert.Router

end
-- ==== Proof.RowValue.lean ====
/-
  One row of one block against the gate.

  Suppose the body's seven loaded blocks are read off the five arrays as the pipeline's windows cut them: the two token
  blocks are row `r` of the token matrix on columns `0 … 2047` and `2048 … 4095`, the two weight blocks are rows
  `0 … 2047` and `2048 … 4095` of the first weight matrix, the two rows are the first bias and the one output column of
  the second weight matrix, the one-entry block is the second bias. Then what the body stores at the block's row `p` is
  the gate at token `r`: the two sums over 2048 features each add up to the sum over all 4096.
-/
import proofs.«149555_g3504693313599_cont_8to1_b_191_5_alg».proof.Proof.KernelPayload
import proofs.«149555_g3504693313599_cont_8to1_b_191_5_alg».proof.Proof.Spec

noncomputable section

namespace Cert.KernelIdeal.RowValue

open Cert.KernelIdeal Cert.KernelIdeal.Gen Idealize.ShloMosaic Idealize.ShloMosaic.ValueIdx Cert.Router

theorem row_is_gate (xa : FVec Ideal S1024x2048 .f32) (wa : FVec Ideal S2048x256 .bf16)
    (xb : FVec Ideal S1024x2048 .f32) (wb : FVec Ideal S2048x256 .bf16)
    (b1r w2r : FVec Ideal S1x256 .f32) (b2r : FVec Ideal S1x1 .f32)
    (X : FVec Ideal ⟨2, ![32768, 4096]⟩ .f32) (W1 : FVec Ideal ⟨2, ![4096, 256]⟩ .f32)
    (B1 : FVec Ideal ⟨1, ![256]⟩ .f32) (W2 : FVec Ideal ⟨2, ![256, 1]⟩ .f32) (B2 : FVec Ideal ⟨1, ![1]⟩ .f32)
    (r : Fin 32768) (p : Fin 1024) (z : Fin 1)
    (hxa : ∀ k : Fin 2048, xa (ix2 p k) = X (ix2 r ⟨k.val, by omega⟩))
    (hxb : ∀ k : Fin 2048, xb (ix2 p k) = X (ix2 r ⟨2048 + k.val, by omega⟩))
    (hwa : ∀ (k : Fin 2048) (j : Fin 256), wa (ix2 k j) = W1 (ix2 ⟨k.val, by omega⟩ j))
    (hwb : ∀ (k : Fin 2048) (j : Fin 256), wb (ix2 k j) = W1 (ix2 ⟨2048 + k.val, by omega⟩ j))
    (hb1 : ∀ j : Fin 256, b1r (ix2 (0 : Fin 1) j) = B1 (ix1 j))
    (hw2 : ∀ j : Fin 256, w2r (ix2 (0 : Fin 1) j) = W2 (ix2 j (0 : Fin 1)))
    (hb2 : b2r (ix2 (0 : Fin 1) (0 : Fin 1)) = B2 (ix1 (0 : Fin 1))) :
    k0_pay1 (F := Ideal) xa wa xb wb b1r w2r b2r (ix2 p z) = gate X W1 B1 W2 B2 (ix2 r (0 : Fin 1)) := by
  rw [Cert.KernelIdeal.Payload.pay_apply, gate_ix2, hb2]
  unfold Cert.Router.logit Cert.Router.hidden
  refine congrArg (fun s => Ideal.logistic (s + B2 (ix1 (0 : Fin 1)))) (Finset.sum_congr rfl fun j _ => ?_)
  rw [hb1, hw2, sum_halves (fun k => X (ix2 r k) * W1 (ix2 k j))]
  simp only [hxa, hxb, hwa, hwb]

end Cert.KernelIdeal.RowValue

end
-- ==== Proof.KernelValue.lean ====
/-
  The result array of the idealized kernel after the run is the gate of the five argument arrays.

  At grid point `t` the windows' blocks are: rows `1024 t … 1024 t + 1023` of the token matrix on its two column
  halves, the two row halves of the first weight matrix (rounded to bf16 by a host operation, which at the exact reals
  is the identity), the first bias and the second weight matrix's column as rows, the second bias as a one-entry block.
  So the block the body stores at point `t` is rows `1024 t … 1024 t + 1023` of the gate; the 32 points' blocks tile the
  result's 32768 rows, each written back once, and the array ends at the gate everywhere.
-/
import proofs.«149555_g3504693313599_cont_8to1_b_191_5_alg».proof.Proof.FrameIdeal
import proofs.«149555_g3504693313599_cont_8to1_b_191_5_alg».proof.Proof.RowValue
import Idealize.ShloMosaic.Lib.Pipeline.Value
import Idealize.ShloMosaic.Lib.StableHlo.Run

set_option maxRecDepth 16384

noncomputable section

namespace Cert.KernelIdeal.RouterValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem origin : (![0, 0] : Fin 2 → Nat) = fun _ => 0 := funext fun a => by fin_cases a <;> rfl

/-! ## The arrays the host operations made, as the region finds them -/

/-- The first weight matrix's upper half: its rows `0 … 2047`, rounded to bf16. -/
theorem entry_upper (c : Dev nD) : (atEntry m c main_v1 : S2048x256.Idx → EReal)
    = extractStridedSlice S2048x256 ![0, 0] (truncf (F := Ideal) .bf16 (m ((c : Thread nD τ).loc main_arg1)) bitsLt_bf16_f32) slices_S4096x256_S2048x256_0_0 := by
  dsimp only [atEntry, hostOps0]; after_results <;> rfl

/-- Its lower half: rows `2048 … 4095`. -/
theorem entry_lower (c : Dev nD) : (atEntry m c main_v2 : S2048x256.Idx → EReal)
    = extractStridedSlice S2048x256 ![2048, 0] (truncf (F := Ideal) .bf16 (m ((c : Thread nD τ).loc main_arg1)) bitsLt_bf16_f32) slices_S4096x256_S2048x256_2048_0 := by
  dsimp only [atEntry, hostOps0]; after_results <;> rfl

/-- The first bias as a row. -/
theorem entry_bias1 (c : Dev nD) : (atEntry m c main_v3 : S1x256.Idx → EReal)
    = shapeCast S1x256 (m ((c : Thread nD τ).loc main_arg2)) shapeCasts_S256_S1x256 := by
  dsimp only [atEntry, hostOps0]; after_results <;> rfl

/-- The second weight matrix's one column as a row. -/
theorem entry_col2 (c : Dev nD) : (atEntry m c main_v4 : S1x256.Idx → EReal)
    = shapeCast S1x256 (m ((c : Thread nD τ).loc main_arg3)) shapeCasts_S256x1_S1x256 := by
  dsimp only [atEntry, hostOps0]; after_results <;> rfl

/-- The second bias as a one-entry block. -/
theorem entry_bias2 (c : Dev nD) : (atEntry m c main_v5 : S1x1.Idx → EReal)
    = shapeCast S1x1 (m ((c : Thread nD τ).loc main_arg4)) shapeCasts_S1_S1x1 := by
  dsimp only [atEntry, hostOps0]; after_results <;> rfl

/-! ## The index maps over the grid -/

/-- Point `t` is block row `t` of the token matrix (both column halves) and of the result; the five small operands
    are always at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The seven input blocks at a point, entry by entry -/

/-- Token block, left half: row `p` of the block is token `1024 t + p`, column `k` is feature `k`. -/
theorem tokens_left (c : Dev nD) (t : Fin cfg0.N) (p : Fin 1024) (k : Fin 2048) (hr : 1024 * t.val + p.val < 32768) :
    blockAt m c 0 t (ix2 p k) = m ((c : Thread nD τ).loc main_arg0) (ix2 ⟨1024 * t.val + p.val, hr⟩ ⟨k.val, by omega⟩) := by
  unfold blockAt
  show atEntry m c main_arg0 (((cfg0.win 0).blk t).view.emb (ix2 p k)) = _
  rw [atEntry_arg0]
  obtain ⟨e0, e1, -⟩ := idx_facts t
  refine congrArg _ (funext fun a => Fin.ext ?_)
  match a with
  | ⟨0, _⟩ => show win0_0.index t (0 : Fin 2) * 1024 + 1 * p.val = 1024 * t.val + p.val; omega
  | ⟨1, _⟩ => show win0_0.index t (1 : Fin 2) * 2048 + 1 * k.val = k.val; omega

/-- Token block, right half: column `k` is feature `2048 + k`. -/
theorem tokens_right (c : Dev nD) (t : Fin cfg0.N) (p : Fin 1024) (k : Fin 2048) (hr : 1024 * t.val + p.val < 32768) :
    blockAt m c 1 t (ix2 p k) = m ((c : Thread nD τ).loc main_arg0) (ix2 ⟨1024 * t.val + p.val, hr⟩ ⟨2048 + k.val, by omega⟩) := by
  unfold blockAt
  show atEntry m c main_arg0 (((cfg0.win 1).blk t).view.emb (ix2 p k)) = _
  rw [atEntry_arg0]
  obtain ⟨-, -, e0, e1, -⟩ := idx_facts t
  refine congrArg _ (funext fun a => Fin.ext ?_)
  match a with
  | ⟨0, _⟩ => show win0_1.index t (0 : Fin 2) * 1024 + 1 * p.val = 1024 * t.val + p.val; omega
  | ⟨1, _⟩ => show win0_1.index t (1 : Fin 2) * 2048 + 1 * k.val = 2048 + k.val; omega

/-- Weight block, upper half: entry `(k, j)` is the first weight matrix at `(k, j)` (the rounding is the identity here). -/
theorem weights_upper (c : Dev nD) (t : Fin cfg0.N) (k : Fin 2048) (j : Fin 256) :
    blockAt m c 2 t (ix2 k j) = m ((c : Thread nD τ).loc main_arg1) (ix2 ⟨k.val, by omega⟩ j) := by
  unfold blockAt
  show atEntry m c main_v1 (((cfg0.win 2).blk t).view.emb (ix2 k j)) = _
  rw [entry_upper]
  obtain ⟨-, -, -, -, e0, e1, -⟩ := idx_facts t
  refine (extractStridedSlice_apply _ _ _ _ (ix2 ⟨k.val, by omega⟩ j) (fun a => ?_)).trans rfl
  match a with
  | ⟨0, _⟩ => show k.val = 0 + (win0_2.index t (0 : Fin 2) * 2048 + 1 * k.val); omega
  | ⟨1, _⟩ => show j.val = 0 + (win0_2.index t (1 : Fin 2) * 256 + 1 * j.val); omega

/-- Weight block, lower half: entry `(k, j)` is the first weight matrix at `(2048 + k, j)`. -/
theorem weights_lower (c : Dev nD) (t : Fin cfg0.N) (k : Fin 2048) (j : Fin 256) :
    blockAt m c 3 t (ix2 k j) = m ((c : Thread nD τ).loc main_arg1) (ix2 ⟨2048 + k.val, by omega⟩ j) := by
  unfold blockAt
  show atEntry m c main_v2 (((cfg0.win 3).blk t).view.emb (ix2 k j)) = _
  rw [entry_lower]
  obtain ⟨-, -, -, -, -, -, e0, e1, -⟩ := idx_facts t
  refine (extractStridedSlice_apply _ _ _ _ (ix2 ⟨2048 + k.val, by omega⟩ j) (fun a => ?_)).trans rfl
  match a with
  | ⟨0, _⟩ => show 2048 + k.val = 2048 + (win0_3.index t (0 : Fin 2) * 2048 + 1 * k.val); omega
  | ⟨1, _⟩ => show j.val = 0 + (win0_3.index t (1 : Fin 2) * 256 + 1 * j.val); omega

/-- The first bias's row: entry `(0, j)` is the bias at `j`. -/
theorem bias1_row (c : Dev nD) (t : Fin cfg0.N) (j : Fin 256) :
    blockAt m c 4 t (ix2 (0 : Fin 1) j) = m ((c : Thread nD τ).loc main_arg2) (ix1 j) := by
  unfold blockAt
  show atEntry m c main_v3 (((cfg0.win 4).blk t).view.emb (ix2 (0 : Fin 1) j)) = _
  rw [entry_bias1]
  obtain ⟨-, -, -, -, -, -, -, -, e0, e1, -⟩ := idx_facts t
  refine shapeCast_apply _ _ _ (ix1 j) ?_
  rw [Shape.rowMajor_val_one, Shape.rowMajor_val_two]
  show j.val = (win0_4.index t (0 : Fin 2) * 1 + 1 * 0) * 256 + (win0_4.index t (1 : Fin 2) * 256 + 1 * j.val)
  omega

/-- The second weight matrix's row: entry `(0, j)` is the matrix at `(j, 0)`. -/
theorem col2_row (c : Dev nD) (t : Fin cfg0.N) (j : Fin 256) :
    blockAt m c 5 t (ix2 (0 : Fin 1) j) = m ((c : Thread nD τ).loc main_arg3) (ix2 j (0 : Fin 1)) := by
  unfold blockAt
  show atEntry m c main_v4 (((cfg0.win 5).blk t).view.emb (ix2 (0 : Fin 1) j)) = _
  rw [entry_col2]
  obtain ⟨-, -, -, -, -, -, -, -, -, -, e0, e1, -⟩ := idx_facts t
  refine shapeCast_apply _ _ _ (ix2 j (0 : Fin 1)) ?_
  rw [Shape.rowMajor_val_two, Shape.rowMajor_val_two]
  show j.val * 1 + 0 = (win0_5.index t (0 : Fin 2) * 1 + 1 * 0) * 256 + (win0_5.index t (1 : Fin 2) * 256 + 1 * j.val)
  omega

/-- The second bias's one entry. -/
theorem bias2_entry (c : Dev nD) (t : Fin cfg0.N) :
    blockAt m c 6 t (ix2 (0 : Fin 1) (0 : Fin 1)) = m ((c : Thread nD τ).loc main_arg4) (ix1 (0 : Fin 1)) := by
  unfold blockAt
  show atEntry m c main_v5 (((cfg0.win 6).blk t).view.emb (ix2 (0 : Fin 1) (0 : Fin 1))) = _
  rw [entry_bias2]
  obtain ⟨-, -, -, -, -, -, -, -, -, -, -, -, e0, e1, -⟩ := idx_facts t
  refine shapeCast_apply _ _ _ (ix1 (0 : Fin 1)) ?_
  rw [Shape.rowMajor_val_one, Shape.rowMajor_val_two]
  show 0 = (win0_6.index t (0 : Fin 2) * 1 + 1 * 0) * 1 + (win0_6.index t (1 : Fin 2) * 1 + 1 * 0)
  omega

/-! ## What point `t` writes back -/

/-- The gate of the launch memory's five argument arrays on core `c`. -/
abbrev gateOf (c : Dev nD) : S32768x1.Idx → EReal :=
  Cert.Router.gate (m ((c : Thread nD τ).loc main_arg0)) (m ((c : Thread nD τ).loc main_arg1)) (m ((c : Thread nD τ).loc main_arg2))
    (m ((c : Thread nD τ).loc main_arg3)) (m ((c : Thread nD τ).loc main_arg4))

theorem N32 : cfg0.N = 32 := N_0

/-- The block written back at point `t` is block `t` of the gate: row `p` of the stored block is the gate at
    token `1024 t + p`. -/
theorem written_back (c : Dev nD) (t : Fin cfg0.N) :
    (pdata m 0 c).flushed 7 t = ((cfg0.win 7).blk t).view.read (Elt Ideal) (gateOf m c) := by
  show (cfg0.win 7).cut (grid0.coords t) ((pdata m 0 c).after 7 t) = _
  rw [left7]
  unfold stored
  rw [View.canon_unit_zero origin]
  simp only [View.ld_unit_zero (S := S1024x2048) origin, View.ld_unit_zero (S := S2048x256) origin,
    View.ld_unit_zero (S := S1x256) origin, View.ld_unit_zero (S := S1x1) origin]
  obtain ⟨-, -, -, -, -, -, -, -, -, -, -, -, -, -, e0, e1⟩ := idx_facts t
  have ht : t.val < 32 := N32 ▸ t.isLt
  funext y
  obtain ⟨p, z, rfl⟩ : ∃ (p : Fin 1024) (z : Fin 1), y = ix2 p z := ⟨y 0, y 1, eq_ix2 y⟩
  have hr : 1024 * t.val + p.val < 32768 := by have := p.isLt; omega
  have hemb : ((cfg0.win 7).blk t).view.emb (ix2 p z) = ix2 (⟨1024 * t.val + p.val, hr⟩ : Fin 32768) (0 : Fin 1) := by
    funext a; apply Fin.ext
    match a with
    | ⟨0, _⟩ => show win0_7.index t (0 : Fin 2) * 1024 + 1 * p.val = 1024 * t.val + p.val; omega
    | ⟨1, _⟩ => show win0_7.index t (1 : Fin 2) * 1 + 1 * z.val = 0; have := z.isLt; omega
  show k0_pay1 (F := Ideal) (blockAt m c 0 t) (blockAt m c 2 t) (blockAt m c 1 t) (blockAt m c 3 t) (blockAt m c 4 t) (blockAt m c 5 t)
      (blockAt m c 6 t) (ix2 p z) = gateOf m c (((cfg0.win 7).blk t).view.emb (ix2 p z))
  rw [hemb]
  exact Cert.KernelIdeal.RowValue.row_is_gate (blockAt m c 0 t) (blockAt m c 2 t) (blockAt m c 1 t) (blockAt m c 3 t)
    (blockAt m c 4 t) (blockAt m c 5 t) (blockAt m c 6 t) _ _ _ _ _ ⟨1024 * t.val + p.val, hr⟩ p z
    (fun k => tokens_left m c t p k hr) (fun k => tokens_right m c t p k hr)
    (fun k j => weights_upper m c t k j) (fun k j => weights_lower m c t k j)
    (fun j => bias1_row m c t j) (fun j => col2_row m c t j) (bias2_entry m c t)

/-! ## The 32 blocks tile the result -/

/-- An index of the result is in point `t`'s block iff each coordinate is in the block's range on its axis. -/
theorem in_block (t : Fin cfg0.N) (i : S32768x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v6).slice (win0_7.rect t)).set ↔ _
  rw [View.set_slice_whole, Rect.mem_set_unit]
  exact Iff.rfl

/-- Token `r` lies in the block of point `r / 1024`, which is written back. -/
theorem covered (i : S32768x1.Idx) : ∃ t : Fin cfg0.N, (cfg0.win 7).flush t = true ∧ i ∈ ((cfg0.win 7).blk t).view.set := by
  have hi0 : (i 0).val < 32768 := (i 0).isLt
  have hi1 : (i 1).val < 1 := (i 1).isLt
  have hlt : (i 0).val / 1024 < cfg0.N := lt_of_lt_of_eq (by omega : (i 0).val / 1024 < 32) N32.symm
  obtain ⟨-, -, -, -, -, -, -, -, -, -, -, -, -, -, e0, e1⟩ := idx_facts ⟨(i 0).val / 1024, hlt⟩
  refine ⟨⟨(i 0).val / 1024, hlt⟩, flush0_7 _, ?_⟩
  rw [in_block]
  intro a
  match a with
  | ⟨0, _⟩ =>
    show win0_7.index ⟨(i 0).val / 1024, hlt⟩ (0 : Fin 2) * 1024 ≤ (i 0).val ∧ (i 0).val < win0_7.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, hlt⟩ (1 : Fin 2) * 1 ≤ (i 1).val ∧ (i 1).val < win0_7.index ⟨(i 0).val / 1024, hlt⟩ (1 : Fin 2) * 1 + 1
    rw [e1]; omega

/-- THE RESULT ARRAY after the run: the gate. -/
theorem result_is_gate (c : Dev nD) : (pdata m 0 c).arrAt 7 cfg0.N = gateOf m c :=
  (pdata m 0 c).arrAt_eq_of_cover 7 (gateOf m c) (fun t _ => written_back m c t) covered

/-! ## The run, read -/

/-- The idealized kernel's run: it terminates without a fault, the result array at the gate of the launch memory's
    argument arrays, the arguments unchanged. -/
theorem run : θ_run defs (onTc (τ := τ) (main (F := Ideal))) ⟨m, fun _ => 0, ρ⟩ fun r => ∀ c : Dev nD,
      r.2.mem ((c.tc : Thread nD τ).loc main_v6) = gateOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 7).trans (result_is_gate m c),
      ((h c).1 0).trans (((pdata m 0 c).arrAt_in 0 rfl _).trans ((A_eq m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c)⟩) (run_main m ρ)

end Cert.KernelIdeal.RouterValue

end
-- ==== Proof.RefValue.lean ====
/-
  The reference's result, read index by index at the exact-real instance, is the gate of `Spec.lean`:
  its two `dot_general`s are the sums over the 4096 features and the 256 hidden units, its broadcasts repeat the two
  biases along the rows, and its last five operations, `1 / (1 + exp (-logit))`, spell the logistic function.
-/
import proofs.«149555_g3504693313599_cont_8to1_b_191_5_alg».proof.Proof.Gen.ReferenceIdeal.Run
import proofs.«149555_g3504693313599_cont_8to1_b_191_5_alg».proof.Proof.Gen.ReferenceIdeal.Read
import proofs.«149555_g3504693313599_cont_8to1_b_191_5_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- Row `r`, column `k` of the first product's left operand, whatever the result's column. -/
theorem lidx0 (r : Fin 32768) (j : Fin 256) (k : Fin 4096) :
    lidx_main_v0 (ix2 r j) k = ix2 r k :=
  funext fun a => Fin.ext (by match a with | ⟨0, _⟩ => rfl | ⟨1, _⟩ => rfl)

/-- Row `k`, column `j` of the first product's right operand, whatever the result's row. -/
theorem ridx0 (r : Fin 32768) (j : Fin 256) (k : Fin 4096) :
    ridx_main_v0 (ix2 r j) k = ix2 k j :=
  funext fun a => Fin.ext (by match a with | ⟨0, _⟩ => rfl | ⟨1, _⟩ => rfl)

/-- The first bias, broadcast along the rows, is read at the column. -/
theorem bidx1 (r : Fin 32768) (j : Fin 256) :
    idx_main_v1 (idx_main_v2 (ix2 r j)) = ix1 j :=
  funext fun a => Fin.ext (by match a with | ⟨0, _⟩ => rfl)

/-- Row `r`, column `j` of the second product's left operand. -/
theorem lidx6 (r : Fin 32768) (z : Fin 1) (j : Fin 256) :
    lidx_main_v6 (ix2 r z) j = ix2 r j :=
  funext fun a => Fin.ext (by match a with | ⟨0, _⟩ => rfl | ⟨1, _⟩ => rfl)

/-- Row `j` of the one output column. -/
theorem ridx6 (r : Fin 32768) (j : Fin 256) :
    ridx_main_v6 (ix2 r (0 : Fin 1)) j = ix2 j (0 : Fin 1) :=
  funext fun a => Fin.ext (by match a with | ⟨0, _⟩ => rfl | ⟨1, _⟩ => rfl)

/-- The second bias has one entry, read everywhere. -/
theorem bidx7 (r : Fin 32768) (z : Fin 1) :
    idx_main_v7 (idx_main_v8 (ix2 r z)) = ix1 (0 : Fin 1) :=
  funext fun a => Fin.ext (by match a with | ⟨0, _⟩ => rfl)

/-- The rectified stage at row `r`, column `j` is the hidden unit `j` of token `r`. -/
theorem relu_is_hidden (x : (⟨S32768x4096, .f32⟩ : BufTy).Contents (Elt Ideal)) (W1 : (⟨S4096x256, .f32⟩ : BufTy).Contents (Elt Ideal))
    (b1 : (⟨S256, .f32⟩ : BufTy).Contents (Elt Ideal)) (r : Fin 32768) (j : Fin 256) :
    val_main_v5 (F := Ideal) x W1 b1 (ix2 r j) = Cert.Router.hidden x W1 b1 r j := by
  rw [val_main_v5_apply, val_main_v3_apply, val_main_v0_apply, val_main_v2_apply, val_main_v1_apply, val_main_v4_apply,
    val_main_cst_apply]
  simp only [lidx0, ridx0, bidx1, Ideal.addf_def, Ideal.maximumf_def, Ideal.ofBits_def, Ideal.ofBits_zero_f32]
  rfl

/-- The reference's last stage is the gate, as whole arrays. -/
theorem ref_is_gate (x : (⟨S32768x4096, .f32⟩ : BufTy).Contents (Elt Ideal)) (W1 : (⟨S4096x256, .f32⟩ : BufTy).Contents (Elt Ideal))
    (b1 : (⟨S256, .f32⟩ : BufTy).Contents (Elt Ideal)) (W2 : (⟨S256x1, .f32⟩ : BufTy).Contents (Elt Ideal))
    (b2 : (⟨S1, .f32⟩ : BufTy).Contents (Elt Ideal)) :
    val_main_v15 (F := Ideal) x W1 b1 W2 b2 = Cert.Router.gate x W1 b1 W2 b2 := by
  funext i
  obtain ⟨r, z, rfl⟩ : ∃ (r : Fin 32768) (z : Fin 1), i = ix2 r z := ⟨i 0, i 1, eq_ix2 i⟩
  obtain rfl : z = 0 := Subsingleton.elim _ _
  rw [Cert.Router.gate_ix2, val_main_v15_apply, val_main_v14_apply, val_main_cst_1_apply, val_main_v13_apply,
    val_main_v12_apply, val_main_cst_0_apply, val_main_v11_apply, val_main_v10_apply, val_main_v9_apply,
    val_main_v6_apply, val_main_v8_apply, val_main_v7_apply]
  simp only [lidx6, ridx6, bidx7, relu_is_hidden, Ideal.hostDivf_def, Ideal.addf_def, Ideal.hostUnary_exp_def,
    Ideal.hostNegf_def, Ideal.negf_def, Ideal.ofBits_def, Ideal.ofBits_one_f32]
  rfl

end Cert.ReferenceIdeal.RefValue

end
-- ==== Proof.lean ====
/-
  The router gate `sigmoid (relu (x · W1 + b1) · W2 + b2)` on 32768 tokens of 4096 features: the Pallas kernel against
  its jnp reference, over the extended reals.

  Both programs compute, for token `r`, the logistic function of
  `∑ⱼ max (∑ₖ x[r,k] · W1[k,j] + b1[j]) 0 · W2[j,0] + b2[0]` (Spec.lean, `Cert.Router.gate`).
  The kernel walks the tokens in 32 blocks of 1024 rows; in each it multiplies the block's two column halves with the
  two row halves of `W1` and adds the two products, so the one law joining the two sides is that a sum over 4096
  features is the sum over the first 2048 plus the sum over the last 2048 — commutativity and associativity of addition
  on the extended reals, no finiteness. The kernel's rounding of `W1` to bf16 is the identity at the exact reals, its
  matrix products into zero accumulators and its lane sum are plain sums, its `tpu.logistic` is the reference's
  `1 / (1 + exp (-z))` by definition. The precondition (finite inputs) is never opened.

  The frames: the kernel reads the token matrix through TWO windows (its column halves), so the two windows hold the
  one array at the two halves of its full share (LibFrameShared.lean, FrameIdeal.lean; FrameBits.lean is the same text
  for the word-level program); the reference's frame is its run with the result dropped. The idealization rewrote
  nothing, so `preserves` is trivial.
-/
import proofs.«149555_g3504693313599_cont_8to1_b_191_5_alg».proof.Defs
import proofs.«149555_g3504693313599_cont_8to1_b_191_5_alg».proof.Proof.Gen.Kernel
import proofs.«149555_g3504693313599_cont_8to1_b_191_5_alg».proof.Proof.Gen.KernelIdeal
import proofs.«149555_g3504693313599_cont_8to1_b_191_5_alg».proof.Proof.Gen.ReferenceIdeal
import proofs.«149555_g3504693313599_cont_8to1_b_191_5_alg».proof.Proof.Gen.Pre_finite_inputs
import proofs.«149555_g3504693313599_cont_8to1_b_191_5_alg».proof.Proof.Gen.ReferenceIdeal.Run
import proofs.«149555_g3504693313599_cont_8to1_b_191_5_alg».proof.Proof.Gen.ReferenceIdeal.Read
import proofs.«149555_g3504693313599_cont_8to1_b_191_5_alg».proof.Proof.FrameBits
import proofs.«149555_g3504693313599_cont_8to1_b_191_5_alg».proof.Proof.FrameIdeal
import proofs.«149555_g3504693313599_cont_8to1_b_191_5_alg».proof.Proof.KernelValue
import proofs.«149555_g3504693313599_cont_8to1_b_191_5_alg».proof.Proof.RefValue

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Frame.frame m ρ

theorem frame_kernel_ideal [Cert.KernelIdeal.Facts] [Cert.Pre_finite_inputs.Facts] : Cert.frame_KernelIdeal :=
  fun m ρ _ => Cert.KernelIdeal.Frame.frame m ρ

theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the five arguments both programs end with the gate of those arguments in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.RouterValue.gateOf m c, Cert.KernelIdeal.RouterValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_is_gate,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
